-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S_ : Shape := ⟨0, ![]⟩

class Facts : Prop where
  bcast_S_S8x2048x1x64 : S_.BroadcastsInDim S8x2048x1x64 (![] : Fin 0 → Fin S8x2048x1x64.rank)
  reducesTo_S8x2048x1x64_S_d0_1_2_3 : S8x2048x1x64.ReducesTo [0, 1, 2, 3] S_
  h_S_ : 0 < S_.numel
  bcast_S_S8x1x2048x64 : S_.BroadcastsInDim S8x1x2048x64 (![] : Fin 0 → Fin S8x1x2048x64.rank)
  reducesTo_S8x1x2048x64_S_d0_1_2_3 : S8x1x2048x64.ReducesTo [0, 1, 2, 3] S_
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn {F : FTy → Type} [FloatOps F] (main_arg0 : FVec F S8x2048x1x64 .f32) (main_arg1 : FVec F S8x1x2048x64 .f32) (main_arg2 : FVec F S8x2048x64 .f32) : IVec S_ 1 :=
  let main_v0 : FVec F S8x2048x1x64 .f32 := Host.absf main_arg0
  let main_cst : FVec F S_ .f32 := constant S_ .f32 0x7F800000#32
  let main_v1 : FVec F S8x2048x1x64 .f32 := broadcastInDim S8x2048x1x64 ![] bcast_S_S8x2048x1x64 main_cst
  let main_v2 : IVec S8x2048x1x64 1 := cmpf .olt main_v0 main_v1
  let main_c : IVec S_ 1 := constantI S_ 1 1#1
  let main_v3 : IVec S_ 1 := (fun x v => Host.reduce IntOp.andi x v reducesTo_S8x2048x1x64_S_d0_1_2_3 h_S_) main_v2 main_c
  let main_v4 : FVec F S8x1x2048x64 .f32 := Host.absf main_arg1
  let main_cst_0 : FVec F S_ .f32 := constant S_ .f32 0x7F800000#32
  let main_v5 : FVec F S8x1x2048x64 .f32 := broadcastInDim S8x1x2048x64 ![] bcast_S_S8x1x2048x64 main_cst_0
  let main_v6 : IVec S8x1x2048x64 1 := cmpf .olt main_v4 main_v5
  let main_c_1 : IVec S_ 1 := constantI S_ 1 1#1
  let main_v7 : IVec S_ 1 := (fun x v => Host.reduce IntOp.andi x v reducesTo_S8x1x2048x64_S_d0_1_2_3 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  main_v13
-- ==== Kernel.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S8x2048x2048 : Shape := ⟨3, ![8, 2048, 2048]⟩
abbrev S8x64x2048 : Shape := ⟨3, ![8, 64, 2048]⟩
abbrev S1x2048x64 : Shape := ⟨3, ![1, 2048, 64]⟩
abbrev S1x256x64 : Shape := ⟨3, ![1, 256, 64]⟩
abbrev S1x2048x256 : Shape := ⟨3, ![1, 2048, 256]⟩
abbrev S1x64x256 : Shape := ⟨3, ![1, 64, 256]⟩
abbrev S2048x64 : Shape := ⟨2, ![2048, 64]⟩
abbrev S256x64 : Shape := ⟨2, ![256, 64]⟩
abbrev S2048x256 : Shape := ⟨2, ![2048, 256]⟩
abbrev S256 : Shape := ⟨1, ![256]⟩
abbrev S1x256 : Shape := ⟨2, ![1, 256]⟩
abbrev S64x256 : Shape := ⟨2, ![64, 256]⟩

abbrev nBuf : Space → Nat
  | .hbm => 7
  | .vmem => 10
  | .smem => 0
  | _ => 0

abbrev bufTy : (tb : Table) → Fin (tcTables nBuf tb) → BufTy
  | .hbm, ⟨0, _⟩ => ⟨S8x2048x1x64, .f32⟩
  | .hbm, ⟨1, _⟩ => ⟨S8x1x2048x64, .f32⟩
  | .hbm, ⟨2, _⟩ => ⟨S8x2048x64, .f32⟩
  | .hbm, ⟨3, _⟩ => ⟨S8x2048x64, .f32⟩
  | .hbm, ⟨4, _⟩ => ⟨S8x2048x64, .f32⟩
  | .hbm, ⟨5, _⟩ => ⟨S8x2048x2048, .f32⟩
  | .hbm, ⟨6, _⟩ => ⟨S8x64x2048, .f32⟩
  | .local _ .vmem, ⟨0, _⟩ => ⟨S1x2048x64, .f32⟩
  | .local _ .vmem, ⟨1, _⟩ => ⟨S1x2048x64, .f32⟩
  | .local _ .vmem, ⟨2, _⟩ => ⟨S1x256x64, .f32⟩
  | .local _ .vmem, ⟨3, _⟩ => ⟨S1x256x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x256, .f32⟩
  | .local _ .vmem, ⟨7, _⟩ => ⟨S1x2048x256, .f32⟩
  | .local _ .vmem, ⟨8, _⟩ => ⟨S1x64x256, .f32⟩
  | .local _ .vmem, ⟨9, _⟩ => ⟨S1x64x256, .f32⟩
  | _, _ => ⟨S8x2048x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x2048x1x64_S8x2048x64 : S8x2048x1x64.ShapeCasts S8x2048x64
  shapeCasts_S8x1x2048x64_S8x2048x64 : S8x1x2048x64.ShapeCasts S8x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  reduces_S2048x256_S256 : S2048x256.Reduces [0] S256
  shapeCasts_S256_S1x256 : S256.ShapeCasts S1x256
  broadcasts_S1x256_S2048x256 : S1x256.Broadcasts S2048x256
  shapeCasts_S2048x256_S1x2048x256 : S2048x256.ShapeCasts S1x2048x256
  inb_S1x2048x256_S1x2048x256_0_0_0 : ∀ a, (![0, 0, 0] : Fin 3 → Nat) a + S1x2048x256.size a ≤ S1x2048x256.size a
  h_S1x2048x256 : 0 < S1x2048x256.numel
  reduces_S64x256_S256 : S64x256.Reduces [0] S256
  broadcasts_S1x256_S64x256 : S1x256.Broadcasts S64x256
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  dot_S2048x64_S256x64_S2048x256_1_1_0_0_n_n_wf : DotDims.WF S2048x64 S256x64 S2048x256 [1] [1] [0] [0] [] []
  dot_S2048x64_S2048x256_S64x256_0_0_1_1_n_n_wf : DotDims.WF S2048x64 S2048x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x2048x64.size a
  hwx0_0 : ∀ i : grid0.Coords, EltTy.bits .f32 = 32 ∨ (Rect.block (s := S8x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x2048x64.size a
  hwx0_1 : ∀ i : grid0.Coords, EltTy.bits .f32 = 32 ∨ (Rect.block (s := S8x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x2048.size a
  hwx0_3 : ∀ i : grid0.Coords, EltTy.bits .f32 = 32 ∨ (Rect.block (s := S8x2048x2048) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S8x64x2048.size a
  hwx0_4 : ∀ i : grid0.Coords, EltTy.bits .f32 = 32 ∨ (Rect.block (s := S8x64x2048) S1x64x256.size (cc0_transform_4 i) (hinb0_4 i)).WholeWords (EltTy.packing .f32)

variable [Facts₀]

def dot_S2048x64_S256x64_S2048x256_1_1_0_0_n_n : DotDims S2048x64 S256x64 S2048x256 where
  lhsContracting := [1]
  rhsContracting := [1]
  lhsNonContracting := [0]
  rhsNonContracting := [0]
  lhsBatch := []
  rhsBatch := []
  wf := dot_S2048x64_S256x64_S2048x256_1_1_0_0_n_n_wf
def dot_S2048x64_S2048x256_S64x256_0_0_1_1_n_n : DotDims S2048x64 S2048x256 S64x256 where
  lhsContracting := [0]
  rhsContracting := [0]
  lhsNonContracting := [1]
  rhsNonContracting := [1]
  lhsBatch := []
  rhsBatch := []
  wf := dot_S2048x64_S2048x256_S64x256_0_0_1_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1x64 : Shape := ⟨4, ![8, 2048, 1, 64]⟩
abbrev S8x1x2048x64 : Shape := ⟨4, ![8, 1, 2048, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x64x2048 : Shape := ⟨3, ![8, 64, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1x64, .f32⟩
  | .hbm, ⟨1, _⟩ => ⟨S8x1x2048x64, .f32⟩
  | .hbm, ⟨2, _⟩ => ⟨S8x2048x64, .f32⟩
  | .hbm, ⟨3, _⟩ => ⟨S8x2048x64, .f32⟩
  | .hbm, ⟨4, _⟩ => ⟨S8x2048x64, .f32⟩
  | .hbm, ⟨5, _⟩ => ⟨S8x2048x2048, .f32⟩
  | .hbm, ⟨6, _⟩ => ⟨S_, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S8x2048x64, .f32⟩
  | .hbm, ⟨25, _⟩ => ⟨S8x2048x64, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x64, .f32⟩
  | .hbm, ⟨34, _⟩ => ⟨S8x2048x64, .f32⟩
  | .hbm, ⟨35, _⟩ => ⟨S8x64x2048, .f32⟩
  | _, _ => ⟨S8x2048x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S8x2048x1x64_S8x2048x64 : S8x2048x1x64.ShapeCasts S8x2048x64
  shapeCasts_S8x1x2048x64_S8x2048x64 : S8x1x2048x64.ShapeCasts S8x2048x64
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x64_S8x2048_d2 : S8x2048x64.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  transposes_S8x2048x64_S8x64x2048_0_2_1 : S8x2048x64.Transposes [0, 2, 1] S8x64x2048
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_1_1_2_2_0_0_wf : DotDims.WF S8x2048x2048 S8x2048x64 S8x2048x64 [1] [1] [2] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_1_1_2_2_0_0 : DotDims S8x2048x2048 S8x2048x64 S8x2048x64 where
  lhsContracting := [1]
  rhsContracting := [1]
  lhsNonContracting := [2]
  rhsNonContracting := [2]
  lhsBatch := [0]
  rhsBatch := [0]
  wf := dot_S8x2048x2048_S8x2048x64_S8x2048x64_1_1_2_2_0_0_wf

class Facts : Prop extends Facts₀ where

variable [Facts]
-- ==== Proof.AttentionColumn.lean ====
/-
  What both programs compute, stated once and free of any tiling.

  Fix a batch. One output column belongs to one query row `q` (64 features) and is a function of that
  row, of all 2048 key rows and of all 2048 value rows of the batch:

    score i  = (sum over k of key i k * q k) * (1/8)            the scaled inner product
    top      = the maximum of the scores (folded from -inf)
    ex i     = exp (score i - top)
    mass     = sum over i of ex i
    weight i = ex i / mass                                      the softmax weight of key i
    mix v    = sum over i of value i v * weight i               the weighted mean of the values
    len      = sqrt (sum over v of mix v * mix v) + eps
    unit v   = mix v / len                                      the mean, scaled to unit length

  The first result array holds `weight` at (batch, key, query); the second holds `unit` at
  (batch, feature, query). Every operation is the exact one on the extended reals, so nothing here
  depends on the inputs being finite.

  Two facts about constants close the module: dividing by the square root of 64 is multiplying by
  the word that denotes 1/8, and the maximum with -inf is the identity.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale `0.125`, as the word both the kernel and this specification spell. -/
abbrev scale : EReal := Ideal.ofBits .f32 0x3E000000#32
/-- `-inf`, the value every maximum starts from. -/
abbrev negInf : EReal := Ideal.ofBits .f32 0xFF800000#32
/-- The small constant added to the length before dividing by it. -/
abbrev eps : EReal := Ideal.ofBits .f32 0x2B8CBCCC#32

variable (kf : Fin 2048 → Fin 64 → EReal) (q : Fin 64 → EReal) (vf : Fin 2048 → Fin 64 → EReal)

/-- The scaled inner product of key row `i` with the query row. -/
def score (i : Fin 2048) : EReal := (∑ k : Fin 64, kf i k * q k) * scale

/-- The largest score of the column. -/
def top : EReal := (Finset.univ : Finset (Fin 2048)).fold max negInf (score kf q)

/-- The exponential of a score, shifted by the largest one. -/
def ex (i : Fin 2048) : EReal := Ideal.exp (score kf q i - top kf q)

/-- The sum of the shifted exponentials. -/
def mass : EReal := ∑ i : Fin 2048, ex kf q i

/-- The softmax weight of key row `i` for this query. -/
def weight (i : Fin 2048) : EReal := Ideal.div (ex kf q i) (mass kf q)

/-- Feature `v` of the weighted mean of the value rows. -/
def mix (v : Fin 64) : EReal := ∑ i : Fin 2048, vf i v * weight kf q i

/-- The Euclidean length of the weighted mean, plus the small constant. -/
def len : EReal := Ideal.sqrt (∑ v : Fin 64, mix kf q vf v * mix kf q vf v) + eps

/-- Feature `v` of the weighted mean scaled to unit length. -/
def unit (v : Fin 64) : EReal := Ideal.div (mix kf q vf v) (len kf q vf)

/-! ## The two result arrays -/

/-- An array of 8 batches of 2048 rows of 64 features. -/
abbrev Rows := (⟨3, ![8, 2048, 64]⟩ : Shape).Idx → EReal

/-- The rows of batch `b`. -/
def rowsOf (A : Rows) (b : Fin 8) : Fin 2048 → Fin 64 → EReal := fun i k => A (ix3 b i k)

/-- Row `o` of batch `b`. -/
def rowOf (A : Rows) (b : Fin 8) (o : Fin 2048) : Fin 64 → EReal := fun k => A (ix3 b o k)

/-- The softmax weights, at (batch, key, query). -/
def Weights (K Q : Rows) : (⟨3, ![8, 2048, 2048]⟩ : Shape).Idx → EReal :=
  fun j => weight (rowsOf K (j 0)) (rowOf Q (j 0) (j 2)) (j 1)

/-- The unit-length weighted means, at (batch, feature, query). -/
def Values (K Q V : Rows) : (⟨3, ![8, 64, 2048]⟩ : Shape).Idx → EReal :=
  fun j => unit (rowsOf K (j 0)) (rowOf Q (j 0) (j 2)) (rowsOf V (j 0)) (j 1)

/-! ## The constants -/

/-- The word `0x42800000` denotes 64. -/
theorem ofBits_64 : Ideal.ofBits .f32 0x42800000#32 = ((64 : ℝ) : EReal) := by
  simp [Ideal.ofBits, Ideal.ieee, -EReal.coe_mul]; norm_num

/-- The word `0x3E000000` denotes 1/8. -/
theorem scale_eq : scale = (((1 / 8 : ℝ)) : EReal) := by
  simp [scale, Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- Dividing by the square root of 64 is multiplying by 1/8, on every extended real. -/
theorem div_sqrt_64 (s : EReal) :
    Ideal.div s (Ideal.sqrt (Ideal.ofBits .f32 0x42800000#32)) = s * scale := by
  rw [ofBits_64, Ideal.sqrt_coe, if_neg (by norm_num), sqrt_64, Ideal.div_coe (by norm_num), scale_eq]

/-- The maximum with `-inf` is the identity. -/
theorem max_negInf (x : EReal) : max negInf x = x := by
  simp [negInf, Ideal.ofBits, Ideal.ieee]

end Cert.Attn

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.LibMatmulColumns.lean ====
/-
  A matrix product that contracts the FIRST axis of both rank-2 operands, read at one entry over the extended reals.

  A K×M left operand against a K×N right operand, both used as they lie (columns against columns), into an M×N
  result: the transpose of the left operand times the right one. Started from the zero accumulator, entry (p, q)
  of the product is the plain sum over k of x[k, p] · y[k, q]: addition of extended reals is commutative and
  associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulColumns

open Idealize.ShloMosaic Idealize.ShloMosaic.ValueIdx

/-- The dimension numbers `<[0], [0], [1], [1], [0, 1, 1, 1], [], []>`: `K×M` by `K×N`, both operands contracted
    on their first axis. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand is read at the contraction position on its first axis … -/
theorem lhs_row (i : (⟨2, ![M, N]⟩ : Shape).Idx) (q : (dims K M N).contr.Idx) :
    ((dims K M N).lhsIdx i q 0).val = (q ⟨0, by rw [DotDims.rank_contr]; exact Nat.one_pos⟩).val :=
  (dims K M N).lhsIdx_val_of_single rfl i q

/-- … and at column `i 0` of the result index. -/
theorem lhs_col (i : (⟨2, ![M, N]⟩ : Shape).Idx) (q : (dims K M N).contr.Idx) :
    ((dims K M N).lhsIdx i q 1).val = (i 0).val := by
  unfold DotDims.lhsIdx
  rw [dif_neg (show ¬(1 : Fin 2) ∈ (dims K M N).lhsBatch by simp [dims]),
    dif_pos (show (1 : Fin 2) ∈ (dims K M N).lhsNonContracting by simp [dims])]
  rfl

/-- The right operand is read at the same contraction position on its first axis … -/
theorem rhs_row (i : (⟨2, ![M, N]⟩ : Shape).Idx) (q : (dims K M N).contr.Idx) :
    ((dims K M N).rhsIdx i q 0).val = (q ⟨0, by rw [DotDims.rank_contr]; exact Nat.one_pos⟩).val :=
  (dims K M N).rhsIdx_val_of_single rfl i q

/-- … and at column `i 1` of the result index. -/
theorem rhs_col (i : (⟨2, ![M, N]⟩ : Shape).Idx) (q : (dims K M N).contr.Idx) :
    ((dims K M N).rhsIdx i q 1).val = (i 1).val := by
  unfold DotDims.rhsIdx
  rw [dif_neg (show ¬(1 : Fin 2) ∈ (dims K M N).rhsBatch by simp [dims]),
    dif_pos (show (1 : Fin 2) ∈ (dims K M N).rhsNonContracting by simp [dims])]
  rfl

/-- Entry (p, q) of xᵀ · y from the zero accumulator: the sum over k of x[k, p] · y[k, q]. -/
theorem matmul_zero_apply {φ₁ φ₂ : FTy} (prec : Option ContractPrecision)
    (x : FVec Ideal ⟨2, ![K, M]⟩ φ₁) (y : FVec Ideal ⟨2, ![K, N]⟩ φ₂) (p : Fin M) (q : Fin N) :
    FloatOps.matmul (dims K M N) prec x y (constant ⟨2, ![M, N]⟩ .f32 0x00000000#32) (ix2 p q)
      = ∑ k : Fin K, x (ix2 k p) * y (ix2 k q) := by
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k)
      = ix2 k p := funext fun a => Fin.ext (by
    match a with
    | ⟨0, _⟩ => exact (lhs_row _ _).trans hk
    | ⟨1, _⟩ => exact lhs_col _ _)
  have er : (dims K M N).rhsIdx (ix2 p q) ((contrEquiv1 (dims K M N) K rfl rfl).symm k)
      = ix2 k q := funext fun a => Fin.ext (by
    match a with
    | ⟨0, _⟩ => exact (rhs_row _ _).trans hk
    | ⟨1, _⟩ => exact rhs_col _ _)
  rw [el, er]

end Idealize.ShloMosaic.MatmulColumns

end
-- ==== Proof.KernelBlock.lean ====
/-
  What the kernel's body computes from one grid point's blocks, entry by entry, over the extended reals.

  At a grid point the body holds the batch's 2048 key rows (`x0`), a tile of 256 query rows (`x1`) and the
  batch's 2048 value rows (`x2`), each with a leading unit axis. Changes of float format are the identity here,
  the first product (keys against queries, both contracted on the feature axis) is the plain sum of products,
  and so is the second (values against weights, both contracted on the key axis). Stage by stage:

    scores (i, o) = score of key i against query o              the product, times the scale word
    tops o        = the largest score of column o               a maximum over the key axis, from -inf
    exps (i, o)   = exp (score - top)
    masses o      = the sum of column o of exps                 a sum over the key axis
    the first stored block (i, o)  = exps / masses              = `weight` of the specification
    mixes (v, o)  = sum over i of value i v * weight i          the second product
    lens o        = sqrt (sum over v of mixes²) + eps           a sum over the feature axis
    the second stored block (v, o) = mixes / lens               = `unit` of the specification

  Each stage is named as the body's own term and read at coordinates; the two closing lemmas say that the two
  stored blocks are the specification's `weight` and `unit` of the block's rows.
-/
import proofs.«163452_j11562051961156_1_alg».proof.Proof.Gen.KernelIdeal.Skeleton
import proofs.«163452_j11562051961156_1_alg».proof.Proof.AttentionColumn
import proofs.«163452_j11562051961156_1_alg».proof.Proof.LibMatmulRows
import proofs.«163452_j11562051961156_1_alg».proof.Proof.LibMatmulColumns
import Idealize.ShloMosaic.Lib.Pipeline.Value
import Idealize.ShloMosaic.Lib.ValueIdx
import Idealize.ShloMosaic.PureOps.Ideal.Laws

noncomputable section

namespace Cert.KernelIdeal.Block
open Cert.KernelIdeal Cert.KernelIdeal.Gen Idealize.ShloMosaic Idealize.ShloMosaic.TcCoe Idealize.ShloMosaic.ValueIdx Cert.Attn

variable (x0 : Vec Ideal S1x2048x64 .f32) (x1 : Vec Ideal S1x256x64 .f32) (x2 : Vec Ideal S1x2048x64 .f32)

/-- The 2048 rows of a key or value block, without the leading unit axis. -/
def rows2048 (x : Vec Ideal S1x2048x64 .f32) : Fin 2048 → Fin 64 → EReal := fun i k => x (ix3 0 i k)
/-- Row `o` of the query tile, without the leading unit axis. -/
def row256 (x : Vec Ideal S1x256x64 .f32) (o : Fin 256) : Fin 64 → EReal := fun k => x (ix3 0 o k)

/-- Dropping the leading unit axis of a 2048-row block keeps every entry in place. -/
theorem cast_rows2048 (x : Vec Ideal S1x2048x64 .f32) (i : Fin 2048) (k : Fin 64) :
    shapeCast S2048x64 x shapeCasts_S1x2048x64_S2048x64 (ix2 i k) = x (ix3 0 i k) :=
  shapeCast_apply x shapeCasts_S1x2048x64_S2048x64 (ix2 i k) (ix3 0 i k) (by
    rw [Shape.rowMajor_val_three, Shape.rowMajor_val_two]
    show (0 * 2048 + i.val) * 64 + k.val = i.val * 64 + k.val
    omega)

/-- Dropping the leading unit axis of the query tile keeps every entry in place. -/
theorem cast_rows256 (x : Vec Ideal S1x256x64 .f32) (o : Fin 256) (k : Fin 64) :
    shapeCast S256x64 x shapeCasts_S1x256x64_S256x64 (ix2 o k) = x (ix3 0 o k) :=
  shapeCast_apply x shapeCasts_S1x256x64_S256x64 (ix2 o k) (ix3 0 o k) (by
    rw [Shape.rowMajor_val_three, Shape.rowMajor_val_two]
    show (0 * 256 + o.val) * 64 + k.val = o.val * 64 + k.val
    omega)

/-- The scaled products of every key row with every query row of the tile. -/
def scores : FVec Ideal S2048x256 .f32 :=
  mulf (matmul dot_S2048x64_S256x64_S2048x256_1_1_0_0_n_n none
      (truncf .bf16 (shapeCast S2048x64 x0 shapeCasts_S1x2048x64_S2048x64) bitsLt_bf16_f32)
      (truncf .bf16 (shapeCast S256x64 x1 shapeCasts_S1x256x64_S256x64) bitsLt_bf16_f32)
      (constant S2048x256 .f32 0x00000000#32))
    (broadcast S2048x256 (Scalar.ofBits .f32 0x3E000000#32))

/-- Entry (key, query) of the product is the sum over the 64 features; times the scale it is the score. -/
theorem scores_apply (i : Fin 2048) (o : Fin 256) :
    scores x0 x1 (ix2 i o) = score (rows2048 x0) (row256 x1 o) i := by
  unfold scores score
  rw [mulf_apply]
  refine congrArg₂ (· * ·) ((MatmulRows.matmul_zero_apply (M := 2048) (K := 64) (N := 256) none
      (truncf .bf16 (shapeCast S2048x64 x0 shapeCasts_S1x2048x64_S2048x64) bitsLt_bf16_f32)
      (truncf .bf16 (shapeCast S256x64 x1 shapeCasts_S1x256x64_S256x64) bitsLt_bf16_f32) i o).trans ?_) rfl
  refine Finset.sum_congr rfl fun k _ => ?_
  rw [truncf_apply, truncf_apply, cast_rows2048, cast_rows256]
  rfl

/-- A source index of the reduction over the key axis: query column `o` with key row `i` put back. -/
theorem lift_key (o : Fin 256) (i : Fin 2048) :
    reduces_S2048x256_S256.lift (ix1 o) i = ix2 i o :=
  funext fun c => Fin.ext (by match c with | ⟨0, _⟩ => rfl | ⟨1, _⟩ => rfl)

/-- The largest score of each query column. -/
def tops : FVec Ideal S256 .f32 :=
  multiReduction .maximumf [0] S256 (scores x0 x1) 0xFF800000#32 reduces_S2048x256_S256 (.inl rfl) rfl

/-- The maximum over the key axis, in any order, is the specification's fold of `max` from -inf. -/
theorem tops_apply (o : Fin 256) : tops x0 x1 (ix1 o) = top (rows2048 x0) (row256 x1 o) := by
  unfold tops top
  refine (Ideal.multiReduction_maximumf_single (scores x0 x1) 0xFF800000#32 reduces_S2048x256_S256 (.inl rfl) rfl (ix1 o)).trans ?_
  refine congrArg (fun f : Fin 2048 → EReal => (Finset.univ : Finset (Fin 2048)).fold max negInf f) (funext fun i => ?_)
  exact (congrArg (scores x0 x1) (lift_key o i)).trans (scores_apply x0 x1 i o)

/-- A per-query row vector, re-laid as one row and repeated down the key axis, read at (key, query). -/
theorem spread_apply (r : FVec Ideal S256 .f32) (i : Fin 2048) (o : Fin 256) :
    broadcastTo S2048x256 (shapeCast S1x256 r shapeCasts_S256_S1x256) broadcasts_S1x256_S2048x256 (ix2 i o) = r (ix1 o) := by
  refine (broadcastTo_apply _ broadcasts_S1x256_S2048x256 (ix2 i o) (ix2 0 o) (fun a => by
    match a with | ⟨0, _⟩ => rfl | ⟨1, _⟩ => rfl)).trans ?_
  exact shapeCast_apply r shapeCasts_S256_S1x256 (ix2 0 o) (ix1 o) (by
    rw [Shape.rowMajor_val_one, Shape.rowMajor_val_two]
    show o.val = 0 * 256 + o.val
    omega)

/-- The exponentials of the scores shifted by their column's largest. -/
def exps : FVec Ideal S2048x256 .f32 :=
  exp (subf (scores x0 x1) (broadcastTo S2048x256 (shapeCast S1x256 (tops x0 x1) shapeCasts_S256_S1x256) broadcasts_S1x256_S2048x256))

theorem exps_apply (i : Fin 2048) (o : Fin 256) :
    exps x0 x1 (ix2 i o) = ex (rows2048 x0) (row256 x1 o) i := by
  unfold exps ex
  show Ideal.exp ((scores x0 x1) (ix2 i o) - (broadcastTo S2048x256 (shapeCast S1x256 (tops x0 x1) shapeCasts_S256_S1x256) broadcasts_S1x256_S2048x256) (ix2 i o)) = _
  rw [spread_apply, scores_apply, tops_apply]

/-- The column sums of the shifted exponentials. -/
def masses : FVec Ideal S256 .f32 :=
  multiReduction .add [0] S256 (exps x0 x1) 0x00000000#32 reduces_S2048x256_S256 (.inl rfl) rfl

/-- The sum over the key axis from the zero word is the plain sum. -/
theorem masses_apply (o : Fin 256) : masses x0 x1 (ix1 o) = mass (rows2048 x0) (row256 x1 o) := by
  unfold masses mass
  refine (Ideal.multiReduction_add_single (exps x0 x1) 0x00000000#32 reduces_S2048x256_S256 (.inl rfl) rfl (ix1 o)).trans ?_
  refine Finset.sum_congr rfl fun i _ => ?_
  exact (congrArg (exps x0 x1) (lift_key o i)).trans (exps_apply x0 x1 i o)

/-- The first stored value is the quotient of the exponentials by their column sums. -/
theorem pay1_eq : k0_pay1 x0 x1 = divf (exps x0 x1)
    (broadcastTo S2048x256 (shapeCast S1x256 (masses x0 x1) shapeCasts_S256_S1x256) broadcasts_S1x256_S2048x256) := rfl

/-- The softmax block at (key, query): the weight of that key for that query row. -/
theorem pay1_apply (i : Fin 2048) (o : Fin 256) :
    k0_pay1 x0 x1 (ix2 i o) = weight (rows2048 x0) (row256 x1 o) i := by
  rw [pay1_eq, divf_apply, spread_apply, exps_apply, masses_apply]
  rfl

/-- The products of the value rows with the weights, contracted on the key axis. -/
def mixes : FVec Ideal S64x256 .f32 :=
  matmul dot_S2048x64_S2048x256_S64x256_0_0_1_1_n_n none
    (truncf .bf16 (shapeCast S2048x64 x2 shapeCasts_S1x2048x64_S2048x64) bitsLt_bf16_f32)
    (truncf .bf16 (k0_pay1 x0 x1) bitsLt_bf16_f32)
    (constant S64x256 .f32 0x00000000#32)

/-- Entry (feature, query) is the sum over the 2048 keys of value times weight. -/
theorem mixes_apply (v : Fin 64) (o : Fin 256) :
    mixes x0 x1 x2 (ix2 v o) = mix (rows2048 x0) (row256 x1 o) (rows2048 x2) v := by
  unfold mixes mix
  refine (MatmulColumns.matmul_zero_apply (K := 2048) (M := 64) (N := 256) none
      (truncf .bf16 (shapeCast S2048x64 x2 shapeCasts_S1x2048x64_S2048x64) bitsLt_bf16_f32)
      (truncf .bf16 (k0_pay1 x0 x1) bitsLt_bf16_f32) v o).trans ?_
  refine Finset.sum_congr rfl fun i _ => ?_
  rw [truncf_apply, truncf_apply, cast_rows2048, pay1_apply]
  rfl

/-- A source index of the reduction over the feature axis: query column `o` with feature `v` put back. -/
theorem lift_feature (o : Fin 256) (v : Fin 64) :
    reduces_S64x256_S256.lift (ix1 o) v = ix2 v o :=
  funext fun c => Fin.ext (by match c with | ⟨0, _⟩ => rfl | ⟨1, _⟩ => rfl)

/-- The Euclidean length of each query's weighted mean, plus the small constant. -/
def lens : FVec Ideal S1x256 .f32 :=
  addf (sqrt (shapeCast S1x256 (multiReduction .add [0] S256 (mulf (mixes x0 x1 x2) (mixes x0 x1 x2)) 0x00000000#32
      reduces_S64x256_S256 (.inl rfl) rfl) shapeCasts_S256_S1x256))
    (broadcast S1x256 (Scalar.ofBits .f32 0x2B8CBCCC#32))

theorem lens_apply (o : Fin 256) :
    lens x0 x1 x2 (ix2 0 o) = len (rows2048 x0) (row256 x1 o) (rows2048 x2) := by
  unfold lens len
  show Ideal.sqrt ((shapeCast S1x256 (multiReduction .add [0] S256 (mulf (mixes x0 x1 x2) (mixes x0 x1 x2)) 0x00000000#32
      reduces_S64x256_S256 (.inl rfl) rfl) shapeCasts_S256_S1x256) (ix2 0 o)) + eps = _
  refine congrArg (fun s => Ideal.sqrt s + eps) ?_
  refine (shapeCast_apply _ shapeCasts_S256_S1x256 (ix2 0 o) (ix1 o) (by
    rw [Shape.rowMajor_val_one, Shape.rowMajor_val_two]
    show o.val = 0 * 256 + o.val
    omega)).trans ?_
  refine (Ideal.multiReduction_add_single (mulf (mixes x0 x1 x2) (mixes x0 x1 x2)) 0x00000000#32
    reduces_S64x256_S256 (.inl rfl) rfl (ix1 o)).trans ?_
  refine Finset.sum_congr rfl fun v _ => ?_
  exact (congrArg (mulf (mixes x0 x1 x2) (mixes x0 x1 x2)) (lift_feature o v)).trans
    (congrArg₂ (· * ·) (mixes_apply x0 x1 x2 v o) (mixes_apply x0 x1 x2 v o))

/-- The second stored value is the quotient of the weighted means by their lengths, with a leading unit axis. -/
theorem pay3_eq : k0_pay3 x0 x1 x2 = shapeCast S1x64x256
    (divf (mixes x0 x1 x2) (broadcastTo S64x256 (lens x0 x1 x2) broadcasts_S1x256_S64x256)) shapeCasts_S64x256_S1x64x256 := rfl

/-- The second block at (feature, query): that feature of the unit-length weighted mean for that query row. -/
theorem pay3_apply (v : Fin 64) (o : Fin 256) :
    k0_pay3 x0 x1 x2 (ix3 0 v o) = unit (rows2048 x0) (row256 x1 o) (rows2048 x2) v := by
  rw [pay3_eq]
  refine (shapeCast_apply _ shapeCasts_S64x256_S1x64x256 (ix3 0 v o) (ix2 v o) (by
    rw [Shape.rowMajor_val_two, Shape.rowMajor_val_three]
    show v.val * 256 + o.val = (0 * 64 + v.val) * 256 + o.val
    omega)).trans ?_
  rw [divf_apply, broadcastTo_apply _ broadcasts_S1x256_S64x256 (ix2 v o) (ix2 0 o) (fun a => by
    match a with | ⟨0, _⟩ => rfl | ⟨1, _⟩ => rfl), mixes_apply, lens_apply]
  rfl

end Cert.KernelIdeal.Block
end
-- ==== Proof.KernelArrays.lean ====
/-
  From blocks to whole arrays: after the kernel's run the first output array holds the softmax weights and the
  second the unit-length weighted means, as functions of the argument arrays.

  The grid has 8 x 8 points, one per (batch, tile of 256 queries). At a point the body sees all 2048 key rows and
  all 2048 value rows of the batch and the tile's 256 query rows, and writes the (2048 x 256) block of weights and
  the (64 x 256) block of normalized means of that batch and tile. A column of either output depends on its own
  query row only (and on the batch's keys and values), so a block entry at (key or feature, o) is the whole array's
  entry at (batch, key or feature, tile * 256 + o): `weights_tile`, `values_tile`. The index maps are decided
  once over the 64 points; an entry's block coordinate is block index times block size plus the coordinate inside
  the block. Each output's blocks are disjoint and together cover the array (the point of an entry is the one of
  its batch and of its query's tile), so the array after the run is the specification's function everywhere.
  The two arrays the region reads for keys and queries are the host's reshapes of the first two arguments.
-/
import proofs.«163452_j11562051961156_1_alg».proof.Proof.Gen.KernelIdeal.Value
import proofs.«163452_j11562051961156_1_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Block Idealize.ShloMosaic Idealize.ShloMosaic.TcCoe Idealize.SL.Sem
open Idealize.ShloMosaic.Pipeline (Dat)
open Idealize.ShloMosaic.ValueIdx Cert.Attn

/-- One entry of a stored weights block is the array's entry: the block's key rows are batch `b`'s, its query rows
    are rows `q * 256 …` of that batch, and a column depends on its own query row only. -/
theorem weights_tile (K Q : Rows) (x0 : Vec Ideal S1x2048x64 .f32) (x1 : Vec Ideal S1x256x64 .f32) (b q : Fin 8)
    (h0 : ∀ (i : Fin 2048) (k : Fin 64), x0 (ix3 0 i k) = K (ix3 b i k))
    (h1 : ∀ (o : Fin 256) (k : Fin 64) (g : Fin 2048), g.val = q.val * 256 + o.val → x1 (ix3 0 o k) = Q (ix3 b g k))
    (j : S1x2048x256.Idx) (g : S8x2048x2048.Idx)
    (g0 : (g 0).val = b.val) (g1 : (g 1).val = (j 1).val) (g2 : (g 2).val = q.val * 256 + (j 2).val) :
    k0_pay2 x0 x1 j = Weights K Q g := by
  obtain ⟨z, i, o, rfl⟩ : ∃ (z : Fin 1) (i : Fin 2048) (o : Fin 256), j = ix3 z i o := ⟨j 0, j 1, j 2, eq_ix3 j⟩
  obtain ⟨gb, gi, go, rfl⟩ : ∃ (gb : Fin 8) (gi go : Fin 2048), g = ix3 gb gi go := ⟨g 0, g 1, g 2, eq_ix3 g⟩
  obtain rfl : z = 0 := Fin.ext (by have := z.isLt; omega)
  obtain rfl : gb = b := Fin.ext g0
  obtain rfl : gi = i := Fin.ext g1
  have hp : k0_pay2 x0 x1 (ix3 0 gi o) = k0_pay1 x0 x1 (ix2 gi o) :=
    shapeCast_apply (k0_pay1 x0 x1) shapeCasts_S2048x256_S1x2048x256 (ix3 0 gi o) (ix2 gi o) (by
      rw [Shape.rowMajor_val_two, Shape.rowMajor_val_three]
      show gi.val * 256 + o.val = (0 * 2048 + gi.val) * 256 + o.val
      omega)
  rw [hp, pay1_apply]
  show weight (rows2048 x0) (row256 x1 o) gi = weight (rowsOf K gb) (rowOf Q gb go) gi
  have e0 : rows2048 x0 = rowsOf K gb := funext fun i => funext fun k => h0 i k
  have e1 : row256 x1 o = rowOf Q gb go := funext fun k => h1 o k go g2
  rw [e0, e1]

/-- One entry of a stored block of normalized means is the array's entry, for the same reason; the value rows
    are batch `b`'s too. -/
theorem values_tile (K Q V : Rows) (x0 : Vec Ideal S1x2048x64 .f32) (x1 : Vec Ideal S1x256x64 .f32)
    (x2 : Vec Ideal S1x2048x64 .f32) (b q : Fin 8)
    (h0 : ∀ (i : Fin 2048) (k : Fin 64), x0 (ix3 0 i k) = K (ix3 b i k))
    (h1 : ∀ (o : Fin 256) (k : Fin 64) (g : Fin 2048), g.val = q.val * 256 + o.val → x1 (ix3 0 o k) = Q (ix3 b g k))
    (h2 : ∀ (i : Fin 2048) (k : Fin 64), x2 (ix3 0 i k) = V (ix3 b i k))
    (j : S1x64x256.Idx) (g : S8x64x2048.Idx)
    (g0 : (g 0).val = b.val) (g1 : (g 1).val = (j 1).val) (g2 : (g 2).val = q.val * 256 + (j 2).val) :
    k0_pay3 x0 x1 x2 j = Values K Q V g := by
  obtain ⟨z, v, o, rfl⟩ : ∃ (z : Fin 1) (v : Fin 64) (o : Fin 256), j = ix3 z v o := ⟨j 0, j 1, j 2, eq_ix3 j⟩
  obtain ⟨gb, gv, go, rfl⟩ : ∃ (gb : Fin 8) (gv : Fin 64) (go : Fin 2048), g = ix3 gb gv go := ⟨g 0, g 1, g 2, eq_ix3 g⟩
  obtain rfl : z = 0 := Fin.ext (by have := z.isLt; omega)
  obtain rfl : gb = b := Fin.ext g0
  obtain rfl : gv = v := Fin.ext g1
  rw [pay3_apply]
  show unit (rows2048 x0) (row256 x1 o) (rows2048 x2) gv = unit (rowsOf K gb) (rowOf Q gb go) (rowsOf V gb) gv
  have e0 : rows2048 x0 = rowsOf K gb := funext fun i => funext fun k => h0 i k
  have e1 : row256 x1 o = rowOf Q gb go := funext fun k => h1 o k go g2
  have e2 : rows2048 x2 = rowsOf V gb := funext fun i => funext fun k => h2 i k
  rw [e0, e1, e2]

variable (m : (ℓ : Loc nD τ sig) → Buf (Elt Ideal) ℓ) (ρ : Dev nD → PrngReg)

/-- The origin of a rank-3 block. -/
theorem hz3 : (![0, 0, 0] : Fin 3 → Nat) = fun _ => 0 := funext fun a => by fin_cases a <;> rfl

/-- The key rows, the query rows and the value rows as the region finds them. -/
abbrev keys (c : Dev nD) : Rows := V m c main_v0
abbrev queries (c : Dev nD) : Rows := V m c main_v1
abbrev values (c : Dev nD) : Rows := V m c main_arg2

/-- The printed index maps, decided over the 64 grid points: the three inputs and the second output follow the
    first output's batch and query-tile indices, every other block index is 0, and both indices stay below 8. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (2 : Fin 3) ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0
    ∧ win0_4.index t (0 : Fin 3) = win0_3.index t (0 : Fin 3) ∧ win0_4.index t (1 : Fin 3) = 0 ∧ win0_4.index t (2 : Fin 3) = win0_3.index t (2 : Fin 3)
    ∧ win0_3.index t (0 : Fin 3) < 8 ∧ win0_3.index t (2 : Fin 3) < 8 :=
  (by decide +kernel : ∀ t : Fin grid0.N, _)

/-- Every (batch, query tile) pair is some grid point's. -/
theorem idx_onto : ∀ (q0 q2 : Fin 8), ∃ t : Fin cfg0.N, win0_3.index t = ![q0.val, 0, q2.val] :=
  (by decide +kernel : ∀ (q0 q2 : Fin 8), ∃ t : Fin grid0.N, win0_3.index t = ![q0.val, 0, q2.val])

/-- What point `t` writes back to the first output is block `t` of the array of softmax weights. -/
theorem flushedW_eq (c : Dev nD) (t : Fin cfg0.N) :
    (dats m 0 c).flushed 3 t = ((cfg0.win 3).blk t).view.read (Elt Ideal) (Weights (keys m c) (queries m c)) := by
  rw [Value.flushed3]
  unfold out0_3
  rw [View.canon_unit_zero hz3]
  simp only [View.ld_unit_zero (S := S1x2048x64) hz3, View.ld_unit_zero (S := S1x256x64) hz3]
  obtain ⟨e00, e01, e02, e10, e11, e12, e20, e21, e22, e31, e40, e41, e42, hb, hq⟩ := idx_facts t
  funext j
  refine weights_tile (keys m c) (queries m c) (iblk m c 0 t) (iblk m c 1 t) ⟨win0_3.index t (0 : Fin 3), hb⟩ ⟨win0_3.index t (2 : Fin 3), hq⟩
    ?_ ?_ j (((cfg0.win 3).blk t).view.emb j) ?_ ?_ ?_
  · intro i k
    show V m c main_v0 (((cfg0.win 0).blk t).view.emb (ix3 0 i k)) = V m c main_v0 (ix3 ⟨win0_3.index t (0 : Fin 3), hb⟩ i k)
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * i.val = i.val; omega
    | ⟨2, _⟩ => show win0_0.index t (2 : Fin 3) * 64 + 1 * k.val = k.val; omega
  · intro o k g hg
    have hg' : g.val = win0_3.index t (2 : Fin 3) * 256 + o.val := hg
    show V m c main_v1 (((cfg0.win 1).blk t).view.emb (ix3 0 o k)) = V m c main_v1 (ix3 ⟨win0_3.index t (0 : Fin 3), hb⟩ g k)
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 256 + 1 * o.val = g.val; omega
    | ⟨2, _⟩ => show win0_1.index t (2 : Fin 3) * 64 + 1 * k.val = k.val; omega
  · show win0_3.index t (0 : Fin 3) * 1 + 1 * (j 0).val = win0_3.index t (0 : Fin 3)
    have hj : (j 0).val < 1 := (j 0).isLt
    omega
  · show win0_3.index t (1 : Fin 3) * 2048 + 1 * (j 1).val = (j 1).val
    omega
  · show win0_3.index t (2 : Fin 3) * 256 + 1 * (j 2).val = win0_3.index t (2 : Fin 3) * 256 + (j 2).val
    omega

/-- What point `t` writes back to the second output is block `t` of the array of normalized means. -/
theorem flushedU_eq (c : Dev nD) (t : Fin cfg0.N) :
    (dats m 0 c).flushed 4 t
      = ((cfg0.win 4).blk t).view.read (Elt Ideal) (Values (keys m c) (queries m c) (values m c)) := by
  rw [Value.flushed4]
  unfold out0_4
  rw [View.canon_unit_zero hz3]
  simp only [View.ld_unit_zero (S := S1x2048x64) hz3, View.ld_unit_zero (S := S1x256x64) hz3]
  obtain ⟨e00, e01, e02, e10, e11, e12, e20, e21, e22, e31, e40, e41, e42, hb, hq⟩ := idx_facts t
  funext j
  refine values_tile (keys m c) (queries m c) (values m c) (iblk m c 0 t) (iblk m c 1 t) (iblk m c 2 t)
    ⟨win0_3.index t (0 : Fin 3), hb⟩ ⟨win0_3.index t (2 : Fin 3), hq⟩
    ?_ ?_ ?_ j (((cfg0.win 4).blk t).view.emb j) ?_ ?_ ?_
  · intro i k
    show V m c main_v0 (((cfg0.win 0).blk t).view.emb (ix3 0 i k)) = V m c main_v0 (ix3 ⟨win0_3.index t (0 : Fin 3), hb⟩ i k)
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * i.val = i.val; omega
    | ⟨2, _⟩ => show win0_0.index t (2 : Fin 3) * 64 + 1 * k.val = k.val; omega
  · intro o k g hg
    have hg' : g.val = win0_3.index t (2 : Fin 3) * 256 + o.val := hg
    show V m c main_v1 (((cfg0.win 1).blk t).view.emb (ix3 0 o k)) = V m c main_v1 (ix3 ⟨win0_3.index t (0 : Fin 3), hb⟩ g k)
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 256 + 1 * o.val = g.val; omega
    | ⟨2, _⟩ => show win0_1.index t (2 : Fin 3) * 64 + 1 * k.val = k.val; omega
  · intro i k
    show V m c main_arg2 (((cfg0.win 2).blk t).view.emb (ix3 0 i k)) = V m c main_arg2 (ix3 ⟨win0_3.index t (0 : Fin 3), hb⟩ i k)
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * i.val = i.val; omega
    | ⟨2, _⟩ => show win0_2.index t (2 : Fin 3) * 64 + 1 * k.val = k.val; omega
  · show win0_4.index t (0 : Fin 3) * 1 + 1 * (j 0).val = win0_3.index t (0 : Fin 3)
    have hj : (j 0).val < 1 := (j 0).isLt
    omega
  · show win0_4.index t (1 : Fin 3) * 64 + 1 * (j 1).val = (j 1).val
    omega
  · show win0_4.index t (2 : Fin 3) * 256 + 1 * (j 2).val = win0_3.index t (2 : Fin 3) * 256 + (j 2).val
    omega

/-- An index of the weights array is in point `t`'s block iff each coordinate is in the block's range on its axis. -/
theorem mem_blkW (t : Fin cfg0.N) (i : S8x2048x2048.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v2_0).slice (win0_3.rect t)).set ↔ _
  rw [View.set_slice_whole, Rect.mem_set_unit]
  exact Iff.rfl

/-- The same for the array of normalized means. -/
theorem mem_blkU (t : Fin cfg0.N) (i : S8x64x2048.Idx) :
    i ∈ ((cfg0.win 4).blk t).view.set ↔ ∀ a : Fin 3, win0_4.index t a * S1x64x256.size a ≤ (i a).val
      ∧ (i a).val < win0_4.index t a * S1x64x256.size a + S1x64x256.size a := by
  show i ∈ ((View.whole main_v2_1).slice (win0_4.rect t)).set ↔ _
  rw [View.set_slice_whole, Rect.mem_set_unit]
  exact Iff.rfl

/-- Every entry of the weights array lies in the block of the point of its batch and its query's tile. -/
theorem coverW (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blkW]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- Every entry of the array of normalized means lies in the block of the same point. -/
theorem coverU (i : S8x64x2048.Idx) :
    ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 2048 := (i 2).isLt
  obtain ⟨t, ht⟩ := idx_onto ⟨(i 0).val, hi0⟩ ⟨(i 2).val / 256, by omega⟩
  have q0 : win0_3.index t (0 : Fin 3) = (i 0).val := congrFun ht 0
  have q2 : win0_3.index t (2 : Fin 3) = (i 2).val / 256 := congrFun ht 2
  obtain ⟨e00, e01, e02, e10, e11, e12, e20, e21, e22, e31, e40, e41, e42, hb, hq⟩ := idx_facts t
  refine ⟨t, flush0_4 t, ?_⟩
  rw [mem_blkU]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-- After the run the first output array holds the softmax weights … -/
theorem finalW (c : Dev nD) : (dats m 0 c).arrAt 3 cfg0.N = Weights (keys m c) (queries m c) :=
  (dats m 0 c).arrAt_eq_of_cover 3 (Weights (keys m c) (queries m c)) (fun t _ => flushedW_eq m c t) coverW

/-- … and the second the normalized weighted means. -/
theorem finalU (c : Dev nD) : (dats m 0 c).arrAt 4 cfg0.N = Values (keys m c) (queries m c) (values m c) :=
  (dats m 0 c).arrAt_eq_of_cover 4 (Values (keys m c) (queries m c) (values m c)) (fun t _ => flushedU_eq m c t) coverU

/-! ## The arrays the region reads, as the host's two reshapes leave them -/

/-- The key rows: the first argument without its unit axis. -/
abbrev keys0 (c : Dev nD) : Rows :=
  shapeCast S8x2048x64 (m ((c : Thread nD τ).loc main_arg0)) shapeCasts_S8x2048x1x64_S8x2048x64
/-- The query rows: the second argument without its unit axis. -/
abbrev queries0 (c : Dev nD) : Rows :=
  shapeCast S8x2048x64 (m ((c : Thread nD τ).loc main_arg1)) shapeCasts_S8x1x2048x64_S8x2048x64

theorem keys_eq (c : Dev nD) : keys m c = keys0 m c := by
  show (V m c main_v0 : S8x2048x64.Idx → EReal) = _
  dsimp only [Gen.V, Gen.hostOps0]; after_results; rfl

theorem queries_eq (c : Dev nD) : queries m c = queries0 m c := by
  show (V m c main_v1 : S8x2048x64.Idx → EReal) = _
  dsimp only [Gen.V, Gen.hostOps0]; after_results; rfl

theorem values_eq (c : Dev nD) : values m c = m ((c : Thread nD τ).loc main_arg2) := V_main_arg2 m c

/-- The kernel's run: both result arrays as the specification's functions of the arguments, the arguments unchanged. -/
theorem run : θ_run defs (onTc (τ := τ) (main (F := Ideal))) ⟨m, fun _ => 0, ρ⟩ fun r => ∀ c : Dev nD,
      r.2.mem ((c : Thread nD τ).loc main_v2_1) = Values (keys0 m c) (queries0 m c) (m ((c : Thread nD τ).loc main_arg2))
      ∧ r.2.mem ((c : Thread nD τ).loc main_v2_0) = Weights (keys0 m c) (queries0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).2.1.trans ((finalU m c).trans (by rw [keys_eq, queries_eq, values_eq])),
      (h c).1.trans ((finalW m c).trans (by rw [keys_eq, queries_eq])),
      (h c).2.2.1, (h c).2.2.2.1, (h c).2.2.2.2⟩)
    (Value.run_blocks m ρ)

end Cert.KernelIdeal.Whole
end
-- ==== Proof.ReferenceValue.lean ====
/-
  The reference program's two results are the specification's two arrays.

  The reference reshapes the keys and the queries to 8 batches of 2048 rows of 64 features, takes the batched
  product over the feature axis, divides by the square root of 64, and takes a softmax over the key axis in the
  usual shifted form; it then multiplies the weights with the value rows over the key axis, divides each
  64-feature result by its Euclidean length plus a small constant, and swaps the last two axes.

  Read one operation at a time at coordinates (batch, key, query) or (batch, query, feature):
  * dividing by sqrt 64 is multiplying by the word that denotes 1/8 (`div_sqrt_64`): the scores agree;
  * the maximum over the key axis folds `max` over the 2048 keys in any order, and the further maximum with -inf
    that the softmax applies is the identity (`max_negInf`);
  * each sum starts from the zero word, which adds nothing;
  * the second product has the weight on the left and the value on the right: multiplication commutes;
  * the final swap of axes only renames the coordinates.
-/
import proofs.«163452_j11562051961156_1_alg».proof.Proof.Gen.ReferenceIdeal.Read
import proofs.«163452_j11562051961156_1_alg».proof.Proof.AttentionColumn
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Attn

variable (x0 : (⟨S8x2048x1x64, .f32⟩ : BufTy).Contents (Elt Ideal)) (x1 : (⟨S8x1x2048x64, .f32⟩ : BufTy).Contents (Elt Ideal))
  (x2 : (⟨S8x2048x64, .f32⟩ : BufTy).Contents (Elt Ideal))

/-- The key rows and the query rows as the reference's two reshapes leave them. -/
abbrev K : Rows := val_main_v0 (F := Ideal) x0
abbrev Q : Rows := val_main_v1 (F := Ideal) x1

/-- The scaled score of key `i` against query `o` in batch `b`. -/
theorem score_at (b : Fin 8) (i o : Fin 2048) :
    val_main_v5 (F := Ideal) x0 x1 (ix3 b i o) = score (rowsOf (K x0) b) (rowOf (Q x1) b o) i := by
  rw [val_main_v5_apply, val_main_v2_apply, val_main_v4_apply, val_main_v3_apply, val_main_cst_apply]
  simp only [Ideal.hostDivf_def, Ideal.hostUnary_sqrt_def, Ideal.ofBits_def]
  rw [div_sqrt_64]
  unfold score rowsOf rowOf
  refine congrArg (· * scale) (Finset.sum_congr rfl fun k _ => ?_)
  have el : lidx_main_v2 (ix3 b i o) k = ix3 b i k :=
    funext fun a => Fin.ext (by match a with | ⟨0, _⟩ => rfl | ⟨1, _⟩ => rfl | ⟨2, _⟩ => rfl)
  have er : ridx_main_v2 (ix3 b i o) k = ix3 b o k :=
    funext fun a => Fin.ext (by match a with | ⟨0, _⟩ => rfl | ⟨1, _⟩ => rfl | ⟨2, _⟩ => rfl)
  rw [el, er]

/-- The shape fact that names the key axis of the scores as the reduced one. -/
theorem keyAxis : S8x2048x2048.Reduces [1] S8x2048 := by decide

/-- A source index of the maximum over the key axis. -/
theorem lift_key (b : Fin 8) (o i : Fin 2048) : keyAxis.lift (ix2 b o) i = ix3 b i o :=
  funext fun c => Fin.ext (by match c with | ⟨0, _⟩ => rfl | ⟨1, _⟩ => rfl | ⟨2, _⟩ => rfl)

/-- The largest score of a query's column. -/
theorem top_at (b : Fin 8) (o : Fin 2048) :
    val_main_v8 (F := Ideal) x0 x1 (ix2 b o) = top (rowsOf (K x0) b) (rowOf (Q x1) b o) := by
  rw [val_main_v8_apply, val_main_v7_apply, val_main_cst_1_apply]
  show max negInf (val_main_v6 (F := Ideal) x0 x1 (ix2 b o)) = _
  rw [max_negInf]
  have h6 := Host.reduce_eq_fold_single (α := Ideal .f32) FloatOps.maximumf (val_main_v5 (F := Ideal) x0 x1) (val_main_cst_0 (F := Ideal))
    reducesTo_S8x2048x2048_S8x2048_d1 keyAxis h_S_ (ix2 b o)
  unfold val_main_v6 top
  refine h6.trans ?_
  refine congrArg (fun f : Fin 2048 → EReal => (Finset.univ : Finset (Fin 2048)).fold max negInf f) (funext fun i => ?_)
  exact (congrArg (val_main_v5 (F := Ideal) x0 x1) (lift_key b o i)).trans (score_at x0 x1 b i o)

/-- The shifted exponential: the column's largest score, broadcast back over the key axis, is subtracted first. -/
theorem ex_at (b : Fin 8) (i o : Fin 2048) :
    val_main_v12 (F := Ideal) x0 x1 (ix3 b i o) = ex (rowsOf (K x0) b) (rowOf (Q x1) b o) i := by
  rw [val_main_v12_apply, val_main_v11_apply, val_main_v10_apply, val_main_v9_apply]
  have e : idx_main_v9 (idx_main_v10 (ix3 b i o)) = ix2 b o :=
    funext fun a => Fin.ext (by match a with | ⟨0, _⟩ => rfl | ⟨1, _⟩ => rfl)
  rw [e, score_at, top_at]
  rfl

/-- A source index of the reference's sum over the key axis. -/
theorem sum_key (b : Fin 8) (o k : Fin 2048) : idx_main_v13 (ix2 b o) k = ix3 b k o :=
  funext fun a => Fin.ext (by match a with | ⟨0, _⟩ => rfl | ⟨1, _⟩ => rfl | ⟨2, _⟩ => rfl)

/-- The column sum of the shifted exponentials. -/
theorem mass_at (b : Fin 8) (o : Fin 2048) :
    val_main_v13 (F := Ideal) x0 x1 (ix2 b o) = mass (rowsOf (K x0) b) (rowOf (Q x1) b o) := by
  rw [val_main_v13_apply, val_main_cst_2_apply]
  show Ideal.ofBits .f32 0x00000000#32 + _ = _
  rw [Ideal.ofBits_zero_f32, zero_add]
  unfold mass
  refine Finset.sum_congr rfl fun k _ => ?_
  rw [sum_key]
  exact ex_at x0 x1 b k o

/-- The softmax weight. -/
theorem weight_at (b : Fin 8) (i o : Fin 2048) :
    val_main_v16 (F := Ideal) x0 x1 (ix3 b i o) = weight (rowsOf (K x0) b) (rowOf (Q x1) b o) i := by
  rw [val_main_v16_apply, val_main_v15_apply, val_main_v14_apply]
  have e : idx_main_v14 (idx_main_v15 (ix3 b i o)) = ix2 b o :=
    funext fun a => Fin.ext (by match a with | ⟨0, _⟩ => rfl | ⟨1, _⟩ => rfl)
  rw [e, ex_at, mass_at]
  rfl

/-- Feature `v` of the weighted mean of the value rows, at (batch, query, feature). -/
theorem mix_at (b : Fin 8) (o : Fin 2048) (v : Fin 64) :
    val_main_v17 (F := Ideal) x0 x1 x2 (ix3 b o v)
      = mix (rowsOf (K x0) b) (rowOf (Q x1) b o) (rowsOf x2 b) v := by
  rw [val_main_v17_apply]
  unfold mix
  refine Finset.sum_congr rfl fun k _ => ?_
  have el : lidx_main_v17 (ix3 b o v) k = ix3 b k o :=
    funext fun a => Fin.ext (by match a with | ⟨0, _⟩ => rfl | ⟨1, _⟩ => rfl | ⟨2, _⟩ => rfl)
  have er : ridx_main_v17 (ix3 b o v) k = ix3 b k v :=
    funext fun a => Fin.ext (by match a with | ⟨0, _⟩ => rfl | ⟨1, _⟩ => rfl | ⟨2, _⟩ => rfl)
  rw [el, er, weight_at, mul_comm]
  rfl

/-- The length of the weighted mean plus the small constant, kept with a trailing unit axis. -/
theorem len_at (b : Fin 8) (o : Fin 2048) :
    val_main_v20 (F := Ideal) x0 x1 x2 (ix3 b o 0)
      = len (rowsOf (K x0) b) (rowOf (Q x1) b o) (rowsOf x2 b) := by
  rw [val_main_v20_apply, val_main_v18_apply, val_main_call0_v2_apply, val_main_call0_v1_apply, val_main_call0_cst_apply,
    val_main_v19_apply, val_main_cst_3_apply]
  show Ideal.sqrt (Ideal.ofBits .f32 0x00000000#32 + _) + eps = _
  rw [Ideal.ofBits_zero_f32, zero_add]
  unfold len
  refine congrArg (fun s => Ideal.sqrt s + eps) (Finset.sum_congr rfl fun v _ => ?_)
  have e : idx_main_call0_v1 (idx_main_call0_v2 (ix3 b o 0)) v = ix3 b o v :=
    funext fun a => Fin.ext (by match a with | ⟨0, _⟩ => rfl | ⟨1, _⟩ => rfl | ⟨2, _⟩ => rfl)
  rw [e, val_main_call0_v0_apply, mix_at]
  rfl

/-- The normalized mean after the swap of the last two axes, at (batch, feature, query). -/
theorem unit_at (b : Fin 8) (v : Fin 64) (o : Fin 2048) :
    val_main_v23 (F := Ideal) x0 x1 x2 (ix3 b v o)
      = unit (rowsOf (K x0) b) (rowOf (Q x1) b o) (rowsOf x2 b) v := by
  rw [val_main_v23_apply]
  have e : idx_main_v23 (ix3 b v o) = ix3 b o v :=
    funext fun a => Fin.ext (by match a with | ⟨0, _⟩ => rfl | ⟨1, _⟩ => rfl | ⟨2, _⟩ => rfl)
  rw [e, val_main_v22_apply, val_main_v21_apply]
  have e' : idx_main_v21 (ix3 b o v) = ix3 b o 0 :=
    funext fun a => Fin.ext (by match a with | ⟨0, _⟩ => rfl | ⟨1, _⟩ => rfl | ⟨2, _⟩ => rfl)
  rw [e', mix_at, len_at]
  rfl

/-- The reference's second result is the array of softmax weights. -/
theorem weights_eq : val_main_v16 (F := Ideal) x0 x1 = Weights (K x0) (Q x1) := by
  funext j
  obtain ⟨b, i, o, rfl⟩ : ∃ (b : Fin 8) (i o : Fin 2048), j = ix3 b i o := ⟨j 0, j 1, j 2, eq_ix3 j⟩
  exact weight_at x0 x1 b i o

/-- The reference's first result is the array of unit-length weighted means. -/
theorem values_eq : val_main_v23 (F := Ideal) x0 x1 x2 = Values (K x0) (Q x1) x2 := by
  funext j
  obtain ⟨b, v, o, rfl⟩ : ∃ (b : Fin 8) (v : Fin 64) (o : Fin 2048), j = ix3 b v o := ⟨j 0, j 1, j 2, eq_ix3 j⟩
  exact unit_at x0 x1 x2 b v o

end Cert.ReferenceIdeal.RefValue
end
-- ==== Proof.lean ====
/-
  The certificate: a Pallas attention kernel against its jnp reference, over the extended reals.

  Both programs take keys [8, 2048, 1, 64], queries [8, 1, 2048, 64] and values [8, 2048, 64] and return, per
  batch, the softmax over the key axis of the scaled key-query products (an [8, 2048, 2048] array) and the
  weighted means of the values under those weights, each scaled to unit Euclidean length and laid out feature
  major (an [8, 64, 2048] array). `Proof/AttentionColumn.lean` states one output column as a function of the
  batch's keys and values and of one query row; `Proof/KernelBlock.lean` reads the kernel's body at an entry of a
  block, `Proof/KernelArrays.lean` assembles the 64 blocks of each output into the whole array, and
  `Proof/ReferenceValue.lean` reads the reference's operations at an entry. The two differ in three harmless
  ways: the kernel multiplies the scores by 1/8 where the reference divides by the square root of 64; the
  reference takes one more maximum with -inf; the second product has its factors in the other order. None of
  these needs the inputs to be finite, so the precondition is never opened.

  The three frames: the kernel's (at words and at extended reals) are the generated ones; the reference's is its
  generated run with the results dropped. The idealization rewrote no operation, so `preserves` is trivial.
-/
import proofs.«163452_j11562051961156_1_alg».proof.Defs
import proofs.«163452_j11562051961156_1_alg».proof.Proof.Gen.Kernel
import proofs.«163452_j11562051961156_1_alg».proof.Proof.Gen.Kernel.Skeleton
import proofs.«163452_j11562051961156_1_alg».proof.Proof.Gen.Kernel.Launch
import proofs.«163452_j11562051961156_1_alg».proof.Proof.Gen.Kernel.Points
import proofs.«163452_j11562051961156_1_alg».proof.Proof.Gen.Kernel.Frame
import proofs.«163452_j11562051961156_1_alg».proof.Proof.Gen.KernelIdeal
import proofs.«163452_j11562051961156_1_alg».proof.Proof.Gen.KernelIdeal.Skeleton
import proofs.«163452_j11562051961156_1_alg».proof.Proof.Gen.KernelIdeal.Launch
import proofs.«163452_j11562051961156_1_alg».proof.Proof.Gen.KernelIdeal.Points
import proofs.«163452_j11562051961156_1_alg».proof.Proof.Gen.KernelIdeal.Frame
import proofs.«163452_j11562051961156_1_alg».proof.Proof.Gen.ReferenceIdeal
import proofs.«163452_j11562051961156_1_alg».proof.Proof.Gen.Pre_finite_inputs
import proofs.«163452_j11562051961156_1_alg».proof.Proof.Gen.KernelIdeal.Value
import proofs.«163452_j11562051961156_1_alg».proof.Proof.Gen.ReferenceIdeal.Run
import proofs.«163452_j11562051961156_1_alg».proof.Proof.Gen.ReferenceIdeal.Read
import proofs.«163452_j11562051961156_1_alg».proof.Proof.KernelArrays
import proofs.«163452_j11562051961156_1_alg».proof.Proof.ReferenceValue
import Idealize.ShloMosaic.Adequacy
import Idealize.ShloMosaic.Init

noncomputable section

namespace Cert.Proof

open Idealize.ShloMosaic Idealize.SL.Sem Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the specification's two arrays of the
    same keys, queries and values: the kernel by its blocks, the reference operation by operation. -/
theorem algebraic : Cert.algebraic_KernelIdeal_ReferenceIdeal := by
  intro m ρ m' ρ' _ hagree
  refine ⟨fun c => Values (Cert.KernelIdeal.Whole.keys0 m c) (Cert.KernelIdeal.Whole.queries0 m c)
      (m ((c.tc : Thread Cert.KernelIdeal.nD Cert.KernelIdeal.τ).loc Cert.KernelIdeal.main_arg2)),
    fun c => Weights (Cert.KernelIdeal.Whole.keys0 m c) (Cert.KernelIdeal.Whole.queries0 m c),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.ReferenceIdeal.RefValue.values_eq,
      (hagree c).1, (hagree c).2.1, (hagree c).2.2]
    rfl
  · show Cert.ReferenceIdeal.Read.val_main_v16 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [Cert.ReferenceIdeal.RefValue.weights_eq, (hagree c).1, (hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
